-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S800000 32) (main_arg2 : IVec S800000 32) (main_arg3 : FVec F S512x256 .f32) (main_arg4 : FVec F S256 .f32) (main_arg5 : FVec F S256x64 .f32) (main_arg6 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S1x256 : Shape := ⟨2, ![1, 256]⟩
abbrev S800000x256 : Shape := ⟨2, ![800000, 256]⟩
abbrev S50000x64 : Shape := ⟨2, ![50000, 64]⟩
abbrev S2000x64 : Shape := ⟨2, ![2000, 64]⟩
abbrev S1x64 : Shape := ⟨2, ![1, 64]⟩
abbrev S800000x64 : Shape := ⟨2, ![800000, 64]⟩

abbrev nBuf : Space → Nat
  | .hbm => 86
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x1, .f32⟩
  | .hbm, ⟨41, _⟩ => ⟨S50000x512, .bf16⟩
  | .hbm, ⟨42, _⟩ => ⟨S512x256, .bf16⟩
  | .hbm, ⟨43, _⟩ => ⟨S50000x256, .f32⟩
  | .hbm, ⟨44, _⟩ => ⟨S1x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x256, .bf16⟩
  | .hbm, ⟨66, _⟩ => ⟨S256x64, .bf16⟩
  | .hbm, ⟨67, _⟩ => ⟨S50000x64, .f32⟩
  | .hbm, ⟨68, _⟩ => ⟨S1x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S_, .f32⟩
  | .hbm, ⟨79, _⟩ => ⟨S50000x64, .f32⟩
  | .hbm, ⟨80, _⟩ => ⟨S800000x1, .i32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S50000x64, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .bf16⟩
  | .local _ .vmem, ⟨8, _⟩ => ⟨S2000x256, .bf16⟩
  | .local _ .vmem, ⟨9, _⟩ => ⟨S256x64, .bf16⟩
  | .local _ .vmem, ⟨10, _⟩ => ⟨S2000x1, .f32⟩
  | .local _ .vmem, ⟨11, _⟩ => ⟨S2000x1, .f32⟩
  | .local _ .vmem, ⟨12, _⟩ => ⟨S2000x64, .f32⟩
  | .local _ .vmem, ⟨13, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S256_S1x256_1 : S256.BroadcastsInDim S1x256 (![1] : Fin 1 → Fin S1x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S64_S1x64_1 : S64.BroadcastsInDim S1x64 (![1] : Fin 1 → Fin S1x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .bf16 = 32 ∨ (Rect.block (s := S256x64) S256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v21) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x512, .f32⟩
  | .hbm, ⟨41, _⟩ => ⟨S50000x512, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x1, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S50000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S_, .f32⟩
  | .hbm, ⟨79, _⟩ => ⟨S50000x64, .f32⟩
  | .hbm, ⟨80, _⟩ => ⟨S800000x1, .i32⟩
  | .hbm, ⟨81, _⟩ => ⟨S50000x64, .f32⟩
  | .hbm, ⟨82, _⟩ => ⟨S50000x1, .f32⟩
  | .hbm, ⟨83, _⟩ => ⟨S50000x64, .f32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The mathematics both programs compute, as named functions of the argument arrays.

  A graph convolution layer is: scale the node features row-wise by the source norm, multiply by the weight matrix,
  gather the rows at the (wrapped) source indices, add them up per destination node, scale row-wise by the
  destination norm, add the bias. The kernel's program applies the source norm AFTER the matrix product (in the
  epilogue of its tiled product), the reference BEFORE it; everything else is the same chain of host operations,
  which is carried here as named functions that are never opened.
-/
import proofs.«421856_j3530463118095_4_alg».proof.ReferenceIdeal
import Idealize.ShloMosaic.PureOps.Ideal
import Idealize.ShloMosaic.Lib.ValueIdx

noncomputable section

namespace Cert.Spec

open Idealize.ShloMosaic Idealize.ShloMosaic.ValueIdx Cert.ReferenceIdeal Cert.ReferenceIdeal.Facts₀

variable {F : FTy → Type} [FloatOps F] [Cert.ReferenceIdeal.Facts₀]

/-- The number of edges at each node, counted by adding a one per edge into zeros at the edge's node index. -/
def degOf (idx : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32))
    (broadcastInDim S800000x1 ![0] bcast_S800000_S800000x1_0 idx) (broadcastInDim S800000 ![] bcast_S_S800000 (constant S_ .f32 0x3F800000#32))

/-- The symmetric norm of a node: the inverse square root of its degree (at least one) where the degree is positive,
    one elsewhere. -/
def normOf (idx : (⟨S800000, .i32⟩ : BufTy).Contents (Elt F)) : (⟨S50000, .f32⟩ : BufTy).Contents (Elt F) :=
  select (cmpf (F := F) .ogt (degOf idx) (broadcastInDim S50000 ![] bcast_S_S50000 (constant S_ .f32 0x00000000#32)))
    (Host.rsqrt (maximumf (degOf idx) (broadcastInDim S50000 ![] bcast_S_S50000 (constant S_ .f32 0x3F800000#32))))
    (broadcastInDim S50000 ![] bcast_S_S50000 (id (constant S_ .f32 0x3F800000#32)))

/-- A per-node vector as a column. -/
def col (v : (⟨S50000, .f32⟩ : BufTy).Contents (Elt F)) : (⟨S50000x1, .f32⟩ : BufTy).Contents (Elt F) :=
  broadcastInDim S50000x1 ![0] bcast_S50000_S50000x1_0 v

/-- The source indices with negative ones wrapped around by the node count, as a column of gather indices. -/
def wrapIdx (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Message passing on 256 features: gather the rows of `x` at the sources, add them per destination, scale by the
    destination norm column, add the bias. -/
def agg256 (x : (⟨S50000x256, .f32⟩ : BufTy).Contents (Elt F)) (src dst : (⟨S800000, .i32⟩ : BufTy).Contents (Elt F))
    (nd : (⟨S50000x1, .f32⟩ : BufTy).Contents (Elt F)) (b : (⟨S256, .f32⟩ : BufTy).Contents (Elt F)) :
    (⟨S50000x256, .f32⟩ : BufTy).Contents (Elt F) :=
  addf (mulf (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 x (wrapIdx src)))
    (broadcastInDim S50000x256 ![0, 1] bcast_S50000x1_S50000x256_0_1 nd))
    (broadcastInDim S50000x256 ![0, 1] bcast_S1x256_S50000x256_0_1 (broadcastInDim S1x256 ![1] bcast_S256_S1x256_1 b))

/-- The same on 64 features. -/
def agg64 (x : (⟨S50000x64, .f32⟩ : BufTy).Contents (Elt F)) (src dst : (⟨S800000, .i32⟩ : BufTy).Contents (Elt F))
    (nd : (⟨S50000x1, .f32⟩ : BufTy).Contents (Elt F)) (b : (⟨S64, .f32⟩ : BufTy).Contents (Elt F)) :
    (⟨S50000x64, .f32⟩ : BufTy).Contents (Elt F) :=
  addf (mulf (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (Host.gather gather_S50000x64_S800000x1_S800000x64_1_0_n_n_0_1_164 x (wrapIdx src)))
    (broadcastInDim S50000x64 ![0, 1] bcast_S50000x1_S50000x64_0_1 nd))
    (broadcastInDim S50000x64 ![0, 1] bcast_S1x64_S50000x64_0_1 (broadcastInDim S1x64 ![1] bcast_S64_S1x64_1 b))

/-- The positive part. -/
def relu (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- The reference's first dense layer: the features scaled row-wise by the norm column, then times the weights. -/
def refDense1 (x : (⟨S50000x512, .f32⟩ : BufTy).Contents (Elt F)) (w : (⟨S512x256, .f32⟩ : BufTy).Contents (Elt F))
    (ns : (⟨S50000x1, .f32⟩ : BufTy).Contents (Elt F)) : (⟨S50000x256, .f32⟩ : BufTy).Contents (Elt F) :=
  Host.dotGeneral dot_S50000x512_S512x256_S50000x256_1_0_0_1_n_n none
    (mulf x (broadcastInDim S50000x512 ![0, 1] bcast_S50000x1_S50000x512_0_1 ns)) w

/-- The reference's second dense layer. -/
def refDense2 (x : (⟨S50000x256, .f32⟩ : BufTy).Contents (Elt F)) (w : (⟨S256x64, .f32⟩ : BufTy).Contents (Elt F))
    (ns : (⟨S50000x1, .f32⟩ : BufTy).Contents (Elt F)) : (⟨S50000x64, .f32⟩ : BufTy).Contents (Elt F) :=
  Host.dotGeneral dot_S50000x256_S256x64_S50000x64_1_0_0_1_n_n none
    (mulf x (broadcastInDim S50000x256 ![0, 1] bcast_S50000x1_S50000x256_0_1 ns)) w

/-- The reference's result as a function of the seven arguments. -/
def refOut (feat : (⟨S50000x512, .f32⟩ : BufTy).Contents (Elt F)) (src dst : (⟨S800000, .i32⟩ : BufTy).Contents (Elt F))
    (w1 : (⟨S512x256, .f32⟩ : BufTy).Contents (Elt F)) (b1 : (⟨S256, .f32⟩ : BufTy).Contents (Elt F))
    (w2 : (⟨S256x64, .f32⟩ : BufTy).Contents (Elt F)) (b2 : (⟨S64, .f32⟩ : BufTy).Contents (Elt F)) :
    (⟨S50000x64, .f32⟩ : BufTy).Contents (Elt F) :=
  agg64 (refDense2 (relu (agg256 (refDense1 feat w1 (col (normOf src))) src dst (col (normOf dst)) b1)) w2 (col (normOf src)))
    src dst (col (normOf dst)) b2

/-! ## The kernel's tiled product with the scale in its epilogue, as one whole-array function at the ideal values -/

/-- Entry `(p, q)` of the product of `x` (`M × K`) and `w` (`K × N`), times row `p`'s scale. -/
def scaledDot {M K N : ℕ} (x : (⟨2, ![M, K]⟩ : Shape).Idx → EReal) (w : (⟨2, ![K, N]⟩ : Shape).Idx → EReal)
    (s : (⟨2, ![M, 1]⟩ : Shape).Idx → EReal) : (⟨2, ![M, N]⟩ : Shape).Idx → EReal :=
  fun i => (∑ k : Fin K, x (ix2 (i 0) k) * w (ix2 k (i 1))) * s (ix2 (i 0) 0)

/-- The kernel program's result as a function of the seven arguments, at the ideal values. -/
def kerOut (feat : (⟨S50000x512, .f32⟩ : BufTy).Contents (Elt Ideal)) (src dst : (⟨S800000, .i32⟩ : BufTy).Contents (Elt Ideal))
    (w1 : (⟨S512x256, .f32⟩ : BufTy).Contents (Elt Ideal)) (b1 : (⟨S256, .f32⟩ : BufTy).Contents (Elt Ideal))
    (w2 : (⟨S256x64, .f32⟩ : BufTy).Contents (Elt Ideal)) (b2 : (⟨S64, .f32⟩ : BufTy).Contents (Elt Ideal)) :
    (⟨S50000x64, .f32⟩ : BufTy).Contents (Elt Ideal) :=
  agg64 (scaledDot (M := 50000) (K := 256) (N := 64) (relu (agg256 (scaledDot (M := 50000) (K := 512) (N := 256) feat w1 (col (normOf src))) src dst (col (normOf dst)) b1)) w2 (col (normOf src)))
    src dst (col (normOf dst)) b2

end Cert.Spec

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.Region0.lean ====
/-
  Region 0's output array after its pipeline, as one whole-array function of the arrays the region finds.
-/
import proofs.«421856_j3530463118095_4_alg».proof.Proof.Gen.KernelIdeal.Frame
import proofs.«421856_j3530463118095_4_alg».proof.Proof.Spec
import proofs.«421856_j3530463118095_4_alg».proof.Proof.LibPlainMatmul
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## One tile of 2000 rows -/

/-- The body's arithmetic at row `p`, column `q` of a tile: row `p` of the first operand's tile times column `q`
    of the second operand (the product accumulated into zeros is the plain sum of products over the 512 contracted
    positions), times row `p`'s entry of the scale column's tile (the column broadcast along the 256 lanes). -/
theorem tile0_apply (x0 : Vec Ideal S2000x512 .bf16) (x1 : Vec Ideal S512x256 .bf16) (x2 : Vec Ideal S2000x1 .f32)
    (p : Fin 2000) (q : Fin 256) :
    k0_pay1 x0 x1 x2 (ix2 p q) = (∑ k : Fin 512, x0 (ix2 p k) * x1 (ix2 k q)) * x2 (ix2 p 0) := by
  unfold k0_pay1
  rw [mulf_apply, shapeCast_self, shapeCast_self, shapeCast_self]
  refine congrArg₂ (· * ·) ?_ ?_
  · exact Cert.Lib.matmul_plain_zero_apply 2000 512 256 none x0 x1 (ix2 p q)
  · refine broadcastTo_apply x2 _ (ix2 p q) (ix2 p 0) fun a => ?_
    match a with
    | ⟨0, _⟩ => rfl
    | ⟨1, _⟩ => rfl

/-- One entry of a tile against the whole arrays: if the first operand's and the scale column's tiles are the arrays
    read at row offset `r * 2000` and the second operand's tile is its whole array, then the body's value at row `p`,
    column `q` of the tile is the scaled product at row `r * 2000 + p`, column `q` of the arrays. -/
theorem tile0_of_arrays (A0 : S50000x512.Idx → EReal) (A1 : S512x256.Idx → EReal) (A2 : S50000x1.Idx → EReal)
    (x0 : Vec Ideal S2000x512 .bf16) (x1 : Vec Ideal S512x256 .bf16) (x2 : Vec Ideal S2000x1 .f32)
    (r : ℕ) (hr : r < 25)
    (h0 : ∀ (p : Fin 2000) (k : Fin 512), x0 (ix2 p k) = A0 (ix2 ⟨r * 2000 + 1 * p.val, by omega⟩ k))
    (h1 : ∀ (k : Fin 512) (q : Fin 256), x1 (ix2 k q) = A1 (ix2 k q))
    (h2 : ∀ (p : Fin 2000), x2 (ix2 p 0) = A2 (ix2 ⟨r * 2000 + 1 * p.val, by omega⟩ 0))
    (p : Fin 2000) (q : Fin 256) (i : S50000x256.Idx)
    (hi0 : (i 0).val = r * 2000 + 1 * p.val) (hi1 : (i 1).val = q.val) :
    k0_pay1 x0 x1 x2 (ix2 p q)
      = Cert.Spec.scaledDot (M := 50000) (K := 512) (N := 256) A0 A1 A2 i := by
  rw [tile0_apply]
  unfold Cert.Spec.scaledDot
  have e0 : i 0 = (⟨r * 2000 + 1 * p.val, by omega⟩ : Fin 50000) := Fin.ext hi0
  have e1 : i 1 = q := Fin.ext hi1
  rw [e0, e1, h2]
  refine congrArg₂ (· * ·) (Finset.sum_congr rfl fun k _ => ?_) rfl
  rw [h0, h1]

/-! ## The tiles against the arrays -/

/-- The body reads and writes each tile from its first entry on. -/
theorem origin0 : (![0, 0] : Fin 2 → Nat) = fun _ => 0 := funext fun a => by fin_cases a <;> rfl

/-- The tile positions over the 25 grid points: at point `t` the first operand, the scale column and the output
    sit at tile row `t`, tile column `0`; the second operand's one tile is its whole array at every point. -/
theorem tileRows0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point `t` writes back is tile `t` (rows `2000 t` to `2000 t + 1999`) of the scaled product of the
    whole arrays: the one store fills the output tile with the body's arithmetic of the three input tiles, and each
    input tile is its array read at the same rows. -/
theorem writtenBack0_eq (c : Dev nD) (t : Fin cfg0.N) :
    (dat0 (F := Ideal) V c).flushed 3 t = ((cfg0.win 3).blk t).view.read (Elt Ideal)
      (Cert.Spec.scaledDot (M := 50000) (K := 512) (N := 256) (V c main_v21) (V c main_v22) (V c main_v19)) := by
  show (cfg0.win 3).cut (grid0.coords t) ((dat0 V c).after 3 t) = _
  rw [after0_3]
  unfold out0_3
  rw [View.canon_unit_zero origin0]
  simp only [View.ld_unit_zero (S := S2000x512) origin0, View.ld_unit_zero (S := S512x256) origin0,
    View.ld_unit_zero (S := S2000x1) origin0]
  obtain ⟨e00, e01, e10, e11, e20, e21, e30, e31⟩ := tileRows0 t
  have ht : t.val < 25 := t.isLt
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (ix2 p q)
    = Cert.Spec.scaledDot (M := 50000) (K := 512) (N := 256) (V c main_v21) (V c main_v22) (V c main_v19)
        (((cfg0.win 3).blk t).view.emb (ix2 p q))
  refine tile0_of_arrays (V c main_v21) (V c main_v22) (V c main_v19) (iblk0 V c 0 t) (iblk0 V c 1 t) (iblk0 V c 2 t)
    t.val ht ?_ ?_ ?_ p q (((cfg0.win 3).blk t).view.emb (ix2 p q)) ?_ ?_
  · intro p k
    show V c main_v21 (((cfg0.win 0).blk t).view.emb (ix2 p k)) = V c main_v21 _
    refine congrArg _ (funext fun a => Fin.ext ?_)
    match a with
    | ⟨0, _⟩ => show win0_0.index t (0 : Fin 2) * 2000 + 1 * p.val = t.val * 2000 + 1 * p.val; rw [e00]
    | ⟨1, _⟩ => show win0_0.index t (1 : Fin 2) * 512 + 1 * k.val = k.val; rw [e01]; omega
  · intro k q
    show V c main_v22 (((cfg0.win 1).blk t).view.emb (ix2 k q)) = V c main_v22 _
    refine congrArg _ (funext fun a => Fin.ext ?_)
    match a with
    | ⟨0, _⟩ => show win0_1.index t (0 : Fin 2) * 512 + 1 * k.val = k.val; rw [e10]; omega
    | ⟨1, _⟩ => show win0_1.index t (1 : Fin 2) * 256 + 1 * q.val = q.val; rw [e11]; omega
  · intro p
    show V c main_v19 (((cfg0.win 2).blk t).view.emb (ix2 p 0)) = V c main_v19 _
    refine congrArg _ (funext fun a => Fin.ext ?_)
    match a with
    | ⟨0, _⟩ => show win0_2.index t (0 : Fin 2) * 2000 + 1 * p.val = t.val * 2000 + 1 * p.val; rw [e20]
    | ⟨1, _⟩ => show win0_2.index t (1 : Fin 2) * 1 + 1 * 0 = 0; rw [e21]
  · show win0_3.index t (0 : Fin 2) * 2000 + 1 * p.val = t.val * 2000 + 1 * p.val; rw [e30]
  · show win0_3.index t (1 : Fin 2) * 256 + 1 * q.val = q.val; rw [e31]; omega

/-! ## The tiles cover the rows -/

/-- An index of the output array is in point `t`'s tile iff each coordinate is in the tile's range on its axis. -/
theorem mem_tile0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v23).slice (win0_3.rect t)).set ↔ _
  rw [View.set_slice_whole, Rect.mem_set_unit]
  exact Iff.rfl

/-- Every entry of the output array is written back by some grid point: row `r` lies in the tile of point
    `r / 2000`, and `50000 = 25 * 2000`. -/
theorem rows_covered0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have ht : (i 0).val / 2000 < 25 := by omega
  refine ⟨⟨(i 0).val / 2000, ht⟩, flush0_3 _, ?_⟩
  obtain ⟨-, -, -, -, -, -, e30, e31⟩ := tileRows0 ⟨(i 0).val / 2000, ht⟩
  have e30' : win0_3.index ⟨(i 0).val / 2000, ht⟩ (0 : Fin 2) = (i 0).val / 2000 := e30
  rw [mem_tile0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30']; omega
  | ⟨1, _⟩ =>
    show win0_3.index ⟨(i 0).val / 2000, ht⟩ (1 : Fin 2) * 256 ≤ (i 1).val
      ∧ (i 1).val < win0_3.index ⟨(i 0).val / 2000, ht⟩ (1 : Fin 2) * 256 + 256
    rw [e31]; omega

/-! ## The whole array -/

/-- After region 0's 25 grid points the output array holds, at row `p` and column `q`, the product of row `p` of the
    first operand with column `q` of the second, times row `p`'s entry of the scale column: every block of 2000 rows
    is written by its own grid point, and the blocks tile the rows. -/
theorem region0_final (c : Dev nD) :
    (dat0 (F := Ideal) V c).arrAt 3 cfg0.N
      = Cert.Spec.scaledDot (M := 50000) (K := 512) (N := 256) (V c main_v21) (V c main_v22) (V c main_v19) :=
  (dat0 (F := Ideal) V c).arrAt_eq_of_cover 3
    (Cert.Spec.scaledDot (M := 50000) (K := 512) (N := 256) (V c main_v21) (V c main_v22) (V c main_v19))
    (fun t _ => writtenBack0_eq V c t) rows_covered0

end Cert.KernelIdeal.RegionValue

end
-- ==== Proof.Region1.lean ====
/-
  Region 1's output array after its pipeline, as one whole-array function of the arrays the region finds.
-/
import proofs.«421856_j3530463118095_4_alg».proof.Proof.Gen.KernelIdeal.Frame
import proofs.«421856_j3530463118095_4_alg».proof.Proof.Spec
import proofs.«421856_j3530463118095_4_alg».proof.Proof.LibPlainMatmul
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## One tile of 2000 rows -/

/-- The body's arithmetic at row `p`, column `q` of a tile: row `p` of the first operand's tile times column `q`
    of the second operand (the product accumulated into zeros is the plain sum of products over the 256 contracted
    positions), times row `p`'s entry of the scale column's tile (the column broadcast along the 64 lanes). -/
theorem tile1_apply (x0 : Vec Ideal S2000x256 .bf16) (x1 : Vec Ideal S256x64 .bf16) (x2 : Vec Ideal S2000x1 .f32)
    (p : Fin 2000) (q : Fin 64) :
    k1_pay1 x0 x1 x2 (ix2 p q) = (∑ k : Fin 256, x0 (ix2 p k) * x1 (ix2 k q)) * x2 (ix2 p 0) := by
  unfold k1_pay1
  rw [mulf_apply, shapeCast_self, shapeCast_self, shapeCast_self]
  refine congrArg₂ (· * ·) ?_ ?_
  · exact Cert.Lib.matmul_plain_zero_apply 2000 256 64 none x0 x1 (ix2 p q)
  · refine broadcastTo_apply x2 _ (ix2 p q) (ix2 p 0) fun a => ?_
    match a with
    | ⟨0, _⟩ => rfl
    | ⟨1, _⟩ => rfl

/-- One entry of a tile against the whole arrays: if the first operand's and the scale column's tiles are the arrays
    read at row offset `r * 2000` and the second operand's tile is its whole array, then the body's value at row `p`,
    column `q` of the tile is the scaled product at row `r * 2000 + p`, column `q` of the arrays. -/
theorem tile1_of_arrays (A0 : S50000x256.Idx → EReal) (A1 : S256x64.Idx → EReal) (A2 : S50000x1.Idx → EReal)
    (x0 : Vec Ideal S2000x256 .bf16) (x1 : Vec Ideal S256x64 .bf16) (x2 : Vec Ideal S2000x1 .f32)
    (r : ℕ) (hr : r < 25)
    (h0 : ∀ (p : Fin 2000) (k : Fin 256), x0 (ix2 p k) = A0 (ix2 ⟨r * 2000 + 1 * p.val, by omega⟩ k))
    (h1 : ∀ (k : Fin 256) (q : Fin 64), x1 (ix2 k q) = A1 (ix2 k q))
    (h2 : ∀ (p : Fin 2000), x2 (ix2 p 0) = A2 (ix2 ⟨r * 2000 + 1 * p.val, by omega⟩ 0))
    (p : Fin 2000) (q : Fin 64) (i : S50000x64.Idx)
    (hi0 : (i 0).val = r * 2000 + 1 * p.val) (hi1 : (i 1).val = q.val) :
    k1_pay1 x0 x1 x2 (ix2 p q)
      = Cert.Spec.scaledDot (M := 50000) (K := 256) (N := 64) A0 A1 A2 i := by
  rw [tile1_apply]
  unfold Cert.Spec.scaledDot
  have e0 : i 0 = (⟨r * 2000 + 1 * p.val, by omega⟩ : Fin 50000) := Fin.ext hi0
  have e1 : i 1 = q := Fin.ext hi1
  rw [e0, e1, h2]
  refine congrArg₂ (· * ·) (Finset.sum_congr rfl fun k _ => ?_) rfl
  rw [h0, h1]

/-! ## The tiles against the arrays -/

/-- The body reads and writes each tile from its first entry on. -/
theorem origin1 : (![0, 0] : Fin 2 → Nat) = fun _ => 0 := funext fun a => by fin_cases a <;> rfl

/-- The tile positions over the 25 grid points: at point `t` the first operand, the scale column and the output
    sit at tile row `t`, tile column `0`; the second operand's one tile is its whole array at every point. -/
theorem tileRows1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What grid point `t` writes back is tile `t` (rows `2000 t` to `2000 t + 1999`) of the scaled product of the
    whole arrays: the one store fills the output tile with the body's arithmetic of the three input tiles, and each
    input tile is its array read at the same rows. -/
theorem writtenBack1_eq (c : Dev nD) (t : Fin cfg1.N) :
    (dat1 (F := Ideal) V c).flushed 3 t = ((cfg1.win 3).blk t).view.read (Elt Ideal)
      (Cert.Spec.scaledDot (M := 50000) (K := 256) (N := 64) (V c main_v40) (V c main_v41) (V c main_v19)) := by
  show (cfg1.win 3).cut (grid1.coords t) ((dat1 V c).after 3 t) = _
  rw [after1_3]
  unfold out1_3
  rw [View.canon_unit_zero origin1]
  simp only [View.ld_unit_zero (S := S2000x256) origin1, View.ld_unit_zero (S := S256x64) origin1,
    View.ld_unit_zero (S := S2000x1) origin1]
  obtain ⟨e00, e01, e10, e11, e20, e21, e30, e31⟩ := tileRows1 t
  have ht : t.val < 25 := t.isLt
  funext j
  obtain ⟨p, q, rfl⟩ : ∃ (p : Fin 2000) (q : Fin 64), j = ix2 p q := ⟨j 0, j 1, eq_ix2 j⟩
  show k1_pay1 (iblk1 V c 0 t) (iblk1 V c 1 t) (iblk1 V c 2 t) (ix2 p q)
    = Cert.Spec.scaledDot (M := 50000) (K := 256) (N := 64) (V c main_v40) (V c main_v41) (V c main_v19)
        (((cfg1.win 3).blk t).view.emb (ix2 p q))
  refine tile1_of_arrays (V c main_v40) (V c main_v41) (V c main_v19) (iblk1 V c 0 t) (iblk1 V c 1 t) (iblk1 V c 2 t)
    t.val ht ?_ ?_ ?_ p q (((cfg1.win 3).blk t).view.emb (ix2 p q)) ?_ ?_
  · intro p k
    show V c main_v40 (((cfg1.win 0).blk t).view.emb (ix2 p k)) = V c main_v40 _
    refine congrArg _ (funext fun a => Fin.ext ?_)
    match a with
    | ⟨0, _⟩ => show win1_0.index t (0 : Fin 2) * 2000 + 1 * p.val = t.val * 2000 + 1 * p.val; rw [e00]
    | ⟨1, _⟩ => show win1_0.index t (1 : Fin 2) * 256 + 1 * k.val = k.val; rw [e01]; omega
  · intro k q
    show V c main_v41 (((cfg1.win 1).blk t).view.emb (ix2 k q)) = V c main_v41 _
    refine congrArg _ (funext fun a => Fin.ext ?_)
    match a with
    | ⟨0, _⟩ => show win1_1.index t (0 : Fin 2) * 256 + 1 * k.val = k.val; rw [e10]; omega
    | ⟨1, _⟩ => show win1_1.index t (1 : Fin 2) * 64 + 1 * q.val = q.val; rw [e11]; omega
  · intro p
    show V c main_v19 (((cfg1.win 2).blk t).view.emb (ix2 p 0)) = V c main_v19 _
    refine congrArg _ (funext fun a => Fin.ext ?_)
    match a with
    | ⟨0, _⟩ => show win1_2.index t (0 : Fin 2) * 2000 + 1 * p.val = t.val * 2000 + 1 * p.val; rw [e20]
    | ⟨1, _⟩ => show win1_2.index t (1 : Fin 2) * 1 + 1 * 0 = 0; rw [e21]
  · show win1_3.index t (0 : Fin 2) * 2000 + 1 * p.val = t.val * 2000 + 1 * p.val; rw [e30]
  · show win1_3.index t (1 : Fin 2) * 64 + 1 * q.val = q.val; rw [e31]; omega

/-! ## The tiles cover the rows -/

/-- An index of the output array is in point `t`'s tile iff each coordinate is in the tile's range on its axis. -/
theorem mem_tile1 (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v42).slice (win1_3.rect t)).set ↔ _
  rw [View.set_slice_whole, Rect.mem_set_unit]
  exact Iff.rfl

/-- Every entry of the output array is written back by some grid point: row `r` lies in the tile of point
    `r / 2000`, and `50000 = 25 * 2000`. -/
theorem rows_covered1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have ht : (i 0).val / 2000 < 25 := by omega
  refine ⟨⟨(i 0).val / 2000, ht⟩, flush1_3 _, ?_⟩
  obtain ⟨-, -, -, -, -, -, e30, e31⟩ := tileRows1 ⟨(i 0).val / 2000, ht⟩
  have e30' : win1_3.index ⟨(i 0).val / 2000, ht⟩ (0 : Fin 2) = (i 0).val / 2000 := e30
  rw [mem_tile1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e30']; omega
  | ⟨1, _⟩ =>
    show win1_3.index ⟨(i 0).val / 2000, ht⟩ (1 : Fin 2) * 64 ≤ (i 1).val
      ∧ (i 1).val < win1_3.index ⟨(i 0).val / 2000, ht⟩ (1 : Fin 2) * 64 + 64
    rw [e31]; omega

/-! ## The whole array -/

/-- After region 1's 25 grid points the output array holds, at row `p` and column `q`, the product of row `p` of the
    first operand with column `q` of the second, times row `p`'s entry of the scale column: every block of 2000 rows
    is written by its own grid point, and the blocks tile the rows. -/
theorem region1_final (c : Dev nD) :
    (dat1 (F := Ideal) V c).arrAt 3 cfg1.N
      = Cert.Spec.scaledDot (M := 50000) (K := 256) (N := 64) (V c main_v40) (V c main_v41) (V c main_v19) :=
  (dat1 (F := Ideal) V c).arrAt_eq_of_cover 3
    (Cert.Spec.scaledDot (M := 50000) (K := 256) (N := 64) (V c main_v40) (V c main_v41) (V c main_v19))
    (fun t _ => writtenBack1_eq V c t) rows_covered1

end Cert.KernelIdeal.RegionValue

end
-- ==== Proof.KValue.lean ====
/-
  The kernel program's result buffer, read back through @main's segments: host operations up to the first tiled
  product, the product's output array, host operations up to the second product, its output array, and the closing
  host operations. Each boundary's contents are read one buffer at a time as the operations' term of the previous
  boundary's contents; at the ideal values the two conversions to the narrower float format are the identity and
  the result is `Spec.kerOut` of the seven arguments.
-/
import proofs.«421856_j3530463118095_4_alg».proof.Proof.Gen.KernelIdeal.Frame
import proofs.«421856_j3530463118095_4_alg».proof.Proof.Gen.ReferenceIdeal
import proofs.«421856_j3530463118095_4_alg».proof.Proof.Spec
import proofs.«421856_j3530463118095_4_alg».proof.Proof.Region0
import proofs.«421856_j3530463118095_4_alg».proof.Proof.Region1
import Idealize.ShloMosaic.Lib.StableHlo.Run
import Idealize.ShloMosaic.Lib.Pipeline.Cells

set_option maxRecDepth 16384

noncomputable section

namespace Cert.KernelIdeal.KValue

open Idealize.ShloMosaic Idealize.ShloMosaic.TcCoe Idealize.SL.Sem Cert.KernelIdeal Cert.KernelIdeal.Gen Idealize.ShloMosaic.StableHlo

section AnyFloat

variable {F : FTy → Type} [FloatOps F]
variable (m : (ℓ : Loc nD τ sig) → Buf (Elt F) ℓ) (ρ : Dev nD → PrngReg)

/-! ## The first product's entry contents, from the launch memory -/

/-- The source norm column, as the first product finds it. -/
theorem entry0_v19 (c : Dev nD) : W5 m ρ c (Proc.devRef .tc main_v19)
    = Cert.Spec.col (F := F) (Cert.Spec.normOf (m ((c : Thread nD τ).loc main_arg1))) := by
  show StableHlo.after hostOps0_4 (StableHlo.after hostOps0_3 (StableHlo.after hostOps0_2 (StableHlo.after hostOps0_1 (StableHlo.after hostOps0 (W0 m ρ c))))) (Proc.devRef .tc main_v19) = _
  after_results_simp <;> rfl

/-- The destination norm column. -/
theorem entry0_v20 (c : Dev nD) : W5 m ρ c (Proc.devRef .tc main_v20)
    = Cert.Spec.col (F := F) (Cert.Spec.normOf (m ((c : Thread nD τ).loc main_arg2))) := by
  show StableHlo.after hostOps0_4 (StableHlo.after hostOps0_3 (StableHlo.after hostOps0_2 (StableHlo.after hostOps0_1 (StableHlo.after hostOps0 (W0 m ρ c))))) (Proc.devRef .tc main_v20) = _
  after_results_simp <;> rfl

/-- The features, converted to the narrower format. -/
theorem entry0_v21 (c : Dev nD) : W5 m ρ c (Proc.devRef .tc main_v21)
    = truncf .bf16 (m ((c : Thread nD τ).loc main_arg0)) bitsLt_bf16_f32 := by
  show StableHlo.after hostOps0_4 (StableHlo.after hostOps0_3 (StableHlo.after hostOps0_2 (StableHlo.after hostOps0_1 (StableHlo.after hostOps0 (W0 m ρ c))))) (Proc.devRef .tc main_v21) = _
  after_results_simp <;> rfl

/-- The first weights, converted to the narrower format. -/
theorem entry0_v22 (c : Dev nD) : W5 m ρ c (Proc.devRef .tc main_v22)
    = truncf .bf16 (m ((c : Thread nD τ).loc main_arg3)) bitsLt_bf16_f32 := by
  show StableHlo.after hostOps0_4 (StableHlo.after hostOps0_3 (StableHlo.after hostOps0_2 (StableHlo.after hostOps0_1 (StableHlo.after hostOps0 (W0 m ρ c))))) (Proc.devRef .tc main_v22) = _
  after_results_simp <;> rfl

/-- No host operation before the first product writes an argument. -/
theorem entry0_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results_simp <;> rfl
theorem entry0_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results_simp <;> rfl
theorem entry0_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results_simp <;> rfl
theorem entry0_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl
theorem entry0_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl

/-! ## The first product's exit contents: only its output array changes -/

/-- An input window's array is never written: the norm column leaves the first product as it entered. -/
theorem exit0_v19 (c : Dev nD) : W6 m ρ c (Proc.devRef .tc main_v19) = W5 m ρ c (Proc.devRef .tc main_v19) :=
  (W6_arr m ρ c 2).trans (((dat0 (V5 m ρ) c).arrAt_in 2 rfl cfg0.N).trans (A_eq0 (V5 m ρ) c 2))

/-! ## The second product's entry contents, from the first product's exit -/

/-- The hidden features: message passing on the first product's output, the positive part, converted to the
    narrower format. -/
theorem entry1_v40 (c : Dev nD) : W9 m ρ c (Proc.devRef .tc main_v40)
    = truncf .bf16 (Cert.Spec.relu (F := F) (Cert.Spec.agg256 (W6 m ρ c (Proc.devRef .tc main_v23)) (W6 m ρ c (Proc.devRef .tc main_arg1))
        (W6 m ρ c (Proc.devRef .tc main_arg2)) (W6 m ρ c (Proc.devRef .tc main_v20)) (W6 m ρ c (Proc.devRef .tc main_arg4)))) bitsLt_bf16_f32 := by
  show StableHlo.after hostOps1_2 (StableHlo.after hostOps1_1 (StableHlo.after hostOps1 (W6 m ρ c))) (Proc.devRef .tc main_v40) = _
  after_results_simp <;> rfl

/-- The second weights, converted to the narrower format. -/
theorem entry1_v41 (c : Dev nD) : W9 m ρ c (Proc.devRef .tc main_v41)
    = truncf .bf16 (W6 m ρ c (Proc.devRef .tc main_arg5)) bitsLt_bf16_f32 := by
  show StableHlo.after hostOps1_2 (StableHlo.after hostOps1_1 (StableHlo.after hostOps1 (W6 m ρ c))) (Proc.devRef .tc main_v41) = _
  after_results_simp <;> rfl

/-- What the host operations between the two products leave alone. -/
theorem entry1_v19 (c : Dev nD) : W9 m ρ c (Proc.devRef .tc main_v19) = W6 m ρ c (Proc.devRef .tc main_v19) := by
  show StableHlo.after hostOps1_2 (StableHlo.after hostOps1_1 (StableHlo.after hostOps1 (W6 m ρ c))) (Proc.devRef .tc main_v19) = _
  after_results_simp <;> rfl
theorem entry1_v20 (c : Dev nD) : W9 m ρ c (Proc.devRef .tc main_v20) = W6 m ρ c (Proc.devRef .tc main_v20) := by
  show StableHlo.after hostOps1_2 (StableHlo.after hostOps1_1 (StableHlo.after hostOps1 (W6 m ρ c))) (Proc.devRef .tc main_v20) = _
  after_results_simp <;> rfl
theorem entry1_arg1 (c : Dev nD) : W9 m ρ c (Proc.devRef .tc main_arg1) = W6 m ρ c (Proc.devRef .tc main_arg1) := by
  show StableHlo.after hostOps1_2 (StableHlo.after hostOps1_1 (StableHlo.after hostOps1 (W6 m ρ c))) (Proc.devRef .tc main_arg1) = _
  after_results_simp <;> rfl
theorem entry1_arg2 (c : Dev nD) : W9 m ρ c (Proc.devRef .tc main_arg2) = W6 m ρ c (Proc.devRef .tc main_arg2) := by
  show StableHlo.after hostOps1_2 (StableHlo.after hostOps1_1 (StableHlo.after hostOps1 (W6 m ρ c))) (Proc.devRef .tc main_arg2) = _
  after_results_simp <;> rfl
theorem entry1_arg6 (c : Dev nD) : W9 m ρ c (Proc.devRef .tc main_arg6) = W6 m ρ c (Proc.devRef .tc main_arg6) := by
  show StableHlo.after hostOps1_2 (StableHlo.after hostOps1_1 (StableHlo.after hostOps1 (W6 m ρ c))) (Proc.devRef .tc main_arg6) = _
  after_results_simp <;> rfl

/-! ## The result, from the second product's exit -/

/-- The closing host operations: message passing on the second product's output. -/
theorem result_v57 (c : Dev nD) : W11 m ρ c (Proc.devRef .tc main_v57)
    = Cert.Spec.agg64 (F := F) (W10 m ρ c (Proc.devRef .tc main_v42)) (W10 m ρ c (Proc.devRef .tc main_arg1))
        (W10 m ρ c (Proc.devRef .tc main_arg2)) (W10 m ρ c (Proc.devRef .tc main_v20)) (W10 m ρ c (Proc.devRef .tc main_arg6)) := by
  show StableHlo.after hostOps2 (W10 m ρ c) (Proc.devRef .tc main_v57) = _
  generalize W10 m ρ c = W
  after_results_simp <;> rfl

end AnyFloat

/-! ## At the ideal values -/

variable (m : (ℓ : Loc nD τ sig) → Buf (Elt Ideal) ℓ) (ρ : Dev nD → PrngReg)

/-- At the ideal values a conversion to the narrower float format is the identity. -/
theorem truncf_bf16_eq {S : Shape} (x : FVec Ideal S .f32) : truncf (F := Ideal) .bf16 x bitsLt_bf16_f32 = x := rfl

/-- The first product's output array: the features times the first weights, rows scaled by the source norm. -/
theorem exit0_v23 (c : Dev nD) : W6 m ρ c (Proc.devRef .tc main_v23)
    = Cert.Spec.scaledDot (M := 50000) (K := 512) (N := 256) (m ((c : Thread nD τ).loc main_arg0)) (m ((c : Thread nD τ).loc main_arg3))
        (Cert.Spec.col (F := Ideal) (Cert.Spec.normOf (m ((c : Thread nD τ).loc main_arg1)))) := by
  refine (W6_arr m ρ c 3).trans ((Cert.KernelIdeal.RegionValue.region0_final (V5 m ρ) c).trans ?_)
  show Cert.Spec.scaledDot (M := 50000) (K := 512) (N := 256) (W5 m ρ c (Proc.devRef .tc main_v21)) (W5 m ρ c (Proc.devRef .tc main_v22)) (W5 m ρ c (Proc.devRef .tc main_v19)) = _
  rw [entry0_v21, entry0_v22, entry0_v19, truncf_bf16_eq, truncf_bf16_eq]

/-- The arguments and the destination norm column at the first product's exit. -/
theorem exit0_arg1 (c : Dev nD) : W6 m ρ c (Proc.devRef .tc main_arg1) = m ((c : Thread nD τ).loc main_arg1) :=
  (W6_of_ne m ρ c main_arg1 (by decide)).trans (entry0_arg1 m ρ c)
theorem exit0_arg2 (c : Dev nD) : W6 m ρ c (Proc.devRef .tc main_arg2) = m ((c : Thread nD τ).loc main_arg2) :=
  (W6_of_ne m ρ c main_arg2 (by decide)).trans (entry0_arg2 m ρ c)
theorem exit0_arg4 (c : Dev nD) : W6 m ρ c (Proc.devRef .tc main_arg4) = m ((c : Thread nD τ).loc main_arg4) :=
  (W6_of_ne m ρ c main_arg4 (by decide)).trans (entry0_arg4 m ρ c)
theorem exit0_arg5 (c : Dev nD) : W6 m ρ c (Proc.devRef .tc main_arg5) = m ((c : Thread nD τ).loc main_arg5) :=
  (W6_of_ne m ρ c main_arg5 (by decide)).trans (entry0_arg5 m ρ c)
theorem exit0_arg6 (c : Dev nD) : W6 m ρ c (Proc.devRef .tc main_arg6) = m ((c : Thread nD τ).loc main_arg6) :=
  (W6_of_ne m ρ c main_arg6 (by decide)).trans (entry0_arg6 m ρ c)
theorem exit0_v20 (c : Dev nD) : W6 m ρ c (Proc.devRef .tc main_v20)
    = Cert.Spec.col (F := Ideal) (Cert.Spec.normOf (m ((c : Thread nD τ).loc main_arg2))) :=
  (W6_of_ne m ρ c main_v20 (by decide)).trans (entry0_v20 m ρ c)
theorem exit0_v19' (c : Dev nD) : W6 m ρ c (Proc.devRef .tc main_v19)
    = Cert.Spec.col (F := Ideal) (Cert.Spec.normOf (m ((c : Thread nD τ).loc main_arg1))) :=
  (exit0_v19 m ρ c).trans (entry0_v19 m ρ c)

/-- The hidden features as the second product finds them: message passing on the first product's output, then the
    positive part. -/
theorem hidden_eq (c : Dev nD) : W9 m ρ c (Proc.devRef .tc main_v40)
    = Cert.Spec.relu (F := Ideal) (Cert.Spec.agg256
        (Cert.Spec.scaledDot (M := 50000) (K := 512) (N := 256) (m ((c : Thread nD τ).loc main_arg0)) (m ((c : Thread nD τ).loc main_arg3))
          (Cert.Spec.col (F := Ideal) (Cert.Spec.normOf (m ((c : Thread nD τ).loc main_arg1)))))
        (m ((c : Thread nD τ).loc main_arg1)) (m ((c : Thread nD τ).loc main_arg2)) (Cert.Spec.col (F := Ideal) (Cert.Spec.normOf (m ((c : Thread nD τ).loc main_arg2)))) (m ((c : Thread nD τ).loc main_arg4))) := by
  rw [entry1_v40, truncf_bf16_eq, exit0_v23, exit0_arg1, exit0_arg2, exit0_v20, exit0_arg4]

/-- The second product's output array: the hidden features times the second weights, rows scaled by the source norm. -/
theorem exit1_v42 (c : Dev nD) : W10 m ρ c (Proc.devRef .tc main_v42)
    = Cert.Spec.scaledDot (M := 50000) (K := 256) (N := 64) (W9 m ρ c (Proc.devRef .tc main_v40)) (m ((c : Thread nD τ).loc main_arg5))
        (Cert.Spec.col (F := Ideal) (Cert.Spec.normOf (m ((c : Thread nD τ).loc main_arg1)))) := by
  refine (W10_arr m ρ c 3).trans ((Cert.KernelIdeal.RegionValue.region1_final (V9 m ρ) c).trans ?_)
  show Cert.Spec.scaledDot (M := 50000) (K := 256) (N := 64) (W9 m ρ c (Proc.devRef .tc main_v40)) (W9 m ρ c (Proc.devRef .tc main_v41)) (W9 m ρ c (Proc.devRef .tc main_v19)) = _
  rw [entry1_v41, truncf_bf16_eq, exit0_arg5, entry1_v19, exit0_v19']

/-- The arguments and the destination norm column at the second product's exit. -/
theorem exit1_arg1 (c : Dev nD) : W10 m ρ c (Proc.devRef .tc main_arg1) = m ((c : Thread nD τ).loc main_arg1) :=
  (W10_of_ne m ρ c main_arg1 (by decide)).trans ((entry1_arg1 m ρ c).trans (exit0_arg1 m ρ c))
theorem exit1_arg2 (c : Dev nD) : W10 m ρ c (Proc.devRef .tc main_arg2) = m ((c : Thread nD τ).loc main_arg2) :=
  (W10_of_ne m ρ c main_arg2 (by decide)).trans ((entry1_arg2 m ρ c).trans (exit0_arg2 m ρ c))
theorem exit1_arg6 (c : Dev nD) : W10 m ρ c (Proc.devRef .tc main_arg6) = m ((c : Thread nD τ).loc main_arg6) :=
  (W10_of_ne m ρ c main_arg6 (by decide)).trans ((entry1_arg6 m ρ c).trans (exit0_arg6 m ρ c))
theorem exit1_v20 (c : Dev nD) : W10 m ρ c (Proc.devRef .tc main_v20)
    = Cert.Spec.col (F := Ideal) (Cert.Spec.normOf (m ((c : Thread nD τ).loc main_arg2))) :=
  (W10_of_ne m ρ c main_v20 (by decide)).trans ((entry1_v20 m ρ c).trans (exit0_v20 m ρ c))

/-- THE KERNEL PROGRAM'S RESULT is `Spec.kerOut` of its seven arguments. -/
theorem result_eq_kerOut (c : Dev nD) : W11 m ρ c (Proc.devRef .tc main_v57)
    = Cert.Spec.kerOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  rw [result_v57, exit1_v42, hidden_eq, exit1_arg1, exit1_arg2, exit1_v20, exit1_arg6]
  unfold Cert.Spec.kerOut
  exact rfl

end Cert.KernelIdeal.KValue

end
-- ==== Proof.RefSide.lean ====
/-
  The reference's result is `Spec.refOut` of its seven arguments: the composed term its run ends at is that chain of
  named functions, unfolded.
-/
import proofs.«421856_j3530463118095_4_alg».proof.Proof.RefRun
import proofs.«421856_j3530463118095_4_alg».proof.Proof.Spec

noncomputable section

namespace Cert.ReferenceIdeal.RefValue

open Idealize.ShloMosaic Idealize.ShloMosaic.TcCoe Idealize.SL.Sem Cert.ReferenceIdeal Cert.ReferenceIdeal.Gen Cert.ReferenceIdeal.Value

variable {F : FTy → Type} [FloatOps F]

/-- The run's composed term, with its pieces named: two graph-convolution layers, the first followed by the positive
    part, each scaling by the source norm before its matrix product. -/
theorem res_eq_refOut (m : (ℓ : Loc nD τ sig) → Buf (Elt F) ℓ) (c : Dev nD) :
    res_main_v59 m c = Cert.Spec.refOut (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold res_main_v59 Cert.Spec.refOut Cert.Spec.agg64 Cert.Spec.agg256 Cert.Spec.refDense1 Cert.Spec.refDense2 Cert.Spec.relu
    Cert.Spec.col Cert.Spec.normOf Cert.Spec.degOf Cert.Spec.wrapIdx
  rfl

end Cert.ReferenceIdeal.RefValue

end
-- ==== Proof.LibScaleSum.lean ====
/-
  A nonnegative real factor and a finite sum on the extended reals.

  The extended reals' product does not distribute over the sum in general (the sum of `⊤` and `⊥` is `⊥`), but it
  does for a factor that is a nonnegative real. So such a factor moves out of a finite sum, and a sum of products
  whose left factors were all scaled by it is the sum of the unscaled products, scaled.
-/
import Mathlib.Data.EReal.Operations
import Mathlib.Data.EReal.Inv
import Mathlib.Algebra.BigOperators.Group.Finset.Basic
import Mathlib.Data.Fintype.Basic
import Mathlib.Data.Fintype.BigOperators

namespace Cert.Lib

open scoped BigOperators

/-- A factor `s` with `0 ≤ s` and `s ≠ ⊤` moves out of a finite sum of extended reals: by induction on the index
    set, each step by the distributive law that holds for such a factor. -/
theorem sum_mul_of_nonneg_of_ne_top {ι : Type} (t : Finset ι) (f : ι → EReal) {s : EReal} (h0 : 0 ≤ s) (ht : s ≠ ⊤) :
    (∑ k ∈ t, f k) * s = ∑ k ∈ t, f k * s := by
  classical
  induction t using Finset.induction_on with
  | empty => simp
  | insert a t ha ih =>
    rw [Finset.sum_insert ha, Finset.sum_insert ha, EReal.right_distrib_of_nonneg_of_ne_top h0 ht, ih]

/-- Scaling every left factor of a sum of products over `Fin K` by a nonnegative real `s` scales the sum:
    `(a k * s) * w k = (a k * w k) * s` termwise, and `s` moves out of the sum. -/
theorem sum_scaled_mul_eq {K : ℕ} (a w : Fin K → EReal) {s : EReal} (h0 : 0 ≤ s) (ht : s ≠ ⊤) :
    ∑ k : Fin K, (a k * s) * w k = (∑ k : Fin K, a k * w k) * s := by
  rw [sum_mul_of_nonneg_of_ne_top Finset.univ _ h0 ht]
  exact Finset.sum_congr rfl fun k _ => mul_right_comm (a k) s (w k)

end Cert.Lib
-- ==== Proof.Bridge.lean ====
/-
  The two placements of the source norm agree: scaling the rows before the matrix product or after it gives the same
  entries on the extended reals, because the norm is a nonnegative real.

  Entry `(p, q)` of the reference's product is `∑ k, (x (p, k) * s p) * w (k, q)`, of the kernel's
  `(∑ k, x (p, k) * w (k, q)) * s p`. Termwise `(a * s) * b = (a * b) * s`, and a factor `s` with `0 ≤ s`, `s ≠ ⊤`
  moves out of a finite sum of extended reals; no finiteness of `x` or `w` is needed. The norm of a node is either the
  constant one or the inverse square root of an extended real that is at least one, which is zero (at `⊤`) or the
  inverse of a real square root: in each case a nonnegative real, whatever the node's degree is.
-/
import proofs.«421856_j3530463118095_4_alg».proof.Proof.Spec
import proofs.«421856_j3530463118095_4_alg».proof.Proof.LibPlainMatmul
import proofs.«421856_j3530463118095_4_alg».proof.Proof.LibScaleSum
import Idealize.ShloMosaic.PureOps.Ideal.Laws
import Idealize.ShloMosaic.Lib.Pipeline.Value

noncomputable section

namespace Cert.Spec

open Idealize.ShloMosaic Idealize.ShloMosaic.ValueIdx Cert.ReferenceIdeal Cert.ReferenceIdeal.Facts₀

variable [Cert.ReferenceIdeal.Facts₀]

/-! ## The norm column is a nonnegative real -/

/-- The word `0x3F800000` is the real one. -/
theorem ofBits_one_f32 : Ideal.ofBits .f32 0x3F800000#32 = 1 := by
  simp [Ideal.ofBits, Ideal.ieee, -EReal.coe_mul]; norm_num

/-- The inverse square root of an extended real that is at least one is a nonnegative real: zero at `⊤`, and the
    inverse of a real square root at a real. -/
theorem rsqrt_nonneg_of_one_le (e : EReal) (he : 1 ≤ e) : 0 ≤ Ideal.rsqrt e ∧ Ideal.rsqrt e ≠ ⊤ := by
  induction e using EReal.rec with
  | bot => exact absurd he (not_le.mpr (EReal.bot_lt_coe 1))
  | top => simp
  | coe r =>
    have hr : (1 : ℝ) ≤ r := by exact_mod_cast he
    have h0 : ¬ r < 0 := by linarith
    have h1 : r ≠ 0 := by linarith
    rw [Ideal.rsqrt_coe, if_neg h0, if_neg h1]
    exact ⟨by exact_mod_cast inv_nonneg.mpr (Real.sqrt_nonneg r), EReal.coe_ne_top _⟩

/-- One entry of the norm: whatever the degree `d` and whichever branch the comparison takes, it is the inverse square
    root of `max d 1` or the constant one, a nonnegative real. -/
theorem normEntry_nonneg (c : BitVec 1) (d : EReal) :
    0 ≤ Scalar.select c (Ideal.rsqrt (max d (Ideal.ofBits .f32 0x3F800000#32))) (Ideal.ofBits .f32 0x3F800000#32)
    ∧ Scalar.select c (Ideal.rsqrt (max d (Ideal.ofBits .f32 0x3F800000#32))) (Ideal.ofBits .f32 0x3F800000#32) ≠ ⊤ := by
  rw [ofBits_one_f32]
  rcases BitVec.eq_zero_or_eq_one c with hc | hc
  · rw [hc, select_zero]
    exact ⟨zero_le_one, EReal.coe_ne_top 1⟩
  · rw [hc, select_one]
    exact rsqrt_nonneg_of_one_le _ (le_max_right d 1)

/-- A per-node vector as a column, read at `(p, 0)`: the vector's entry `p`. -/
theorem col_apply (v : (⟨S50000, .f32⟩ : BufTy).Contents (Elt Ideal)) (p : Fin 50000) :
    col (F := Ideal) v (ix2 p 0) = v (ix1 p) := by
  unfold col
  refine broadcastInDim_apply _ _ _ _ _ fun a => ?_
  match a with
  | ⟨0, _⟩ => exact (if_neg (show ¬ (50000 : ℕ) = 1 by decide)).symm

/-- A scalar constant broadcast to the node vector reads the constant's value everywhere. -/
theorem bcastConst_apply (b : BitVec 32) (j : S50000.Idx) :
    broadcastInDim S50000 ![] bcast_S_S50000 (constant (F := Ideal) S_ .f32 b) j = Ideal.ofBits .f32 b := rfl

/-- The host's inverse square root of an elementwise maximum, at an index. -/
theorem rsqrtMax_apply (a b : FVec Ideal S50000 .f32) (j : S50000.Idx) :
    Host.rsqrt (maximumf a b) j = Ideal.rsqrt (max (a j) (b j)) := rfl

/-- The norm column's entries are nonnegative reals, whatever the indices. -/
theorem col_normOf_nonneg (idx : (⟨S800000, .i32⟩ : BufTy).Contents (Elt Ideal)) (p : Fin 50000) :
    0 ≤ col (F := Ideal) (normOf idx) (ix2 p 0) ∧ col (F := Ideal) (normOf idx) (ix2 p 0) ≠ ⊤ := by
  rw [col_apply]
  unfold normOf
  generalize degOf idx = dg
  rw [select_apply, rsqrtMax_apply, id_eq, bcastConst_apply]
  exact normEntry_nonneg _ _

/-! ## The product of the row-scaled operand is the row-scaled product -/

/-- A column broadcast along the rows of an `M × N` array reads, at `(p, k)`, the column's entry of row `p`. -/
theorem bcastCol_apply {α : Type} {M N : ℕ} (hM : M ≠ 1)
    (hb : (⟨2, ![M, 1]⟩ : Shape).BroadcastsInDim ⟨2, ![M, N]⟩ (![0, 1] : Fin 2 → Fin 2))
    (ns : (⟨2, ![M, 1]⟩ : Shape).Idx → α) (p : Fin M) (k : Fin N) :
    broadcastInDim ⟨2, ![M, N]⟩ ![0, 1] hb ns (ix2 p k) = ns (ix2 p 0) := by
  refine broadcastInDim_apply _ hb ns _ _ fun a => ?_
  match a with
  | ⟨0, _⟩ => exact (if_neg hM).symm
  | ⟨1, _⟩ => exact (if_pos rfl).symm

/-- The host's product with the plain dimension numbers (axis 1 of an `M × K` operand contracted with axis 0 of a
    `K × N` operand, no batch axis), at an index: the sum over the contracted axis, the sum over the contraction
    shape's indices re-indexed by that shape's one coordinate. -/
theorem dotPlain_apply {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (j : (⟨2, ![M, N]⟩ : Shape).Idx) :
    Host.dotGeneral (F := Ideal) d none l r j = ∑ k : Fin K, l (ix2 (j 0) k) * r (ix2 k (j 1)) := by
  subst hd
  simp only [Host.dotGeneral]
  rw [Ideal.dotGeneral_apply, ← Equiv.sum_comp (contrEquiv1 (DotDims.plain M K N) K rfl rfl).symm]
  refine Finset.sum_congr rfl fun k _ => ?_
  rw [Cert.Lib.plain_lhsIdx, Cert.Lib.plain_rhsIdx]
  rfl

/-- Layer 1: the reference's product of the row-scaled features is the product scaled row-wise afterwards. -/
theorem refDense1_eq (x : (⟨S50000x512, .f32⟩ : BufTy).Contents (Elt Ideal)) (w : (⟨S512x256, .f32⟩ : BufTy).Contents (Elt Ideal))
    (ns : (⟨S50000x1, .f32⟩ : BufTy).Contents (Elt Ideal)) (h : ∀ p : Fin 50000, 0 ≤ ns (ix2 p 0) ∧ ns (ix2 p 0) ≠ ⊤) :
    refDense1 (F := Ideal) x w ns = scaledDot (M := 50000) (K := 512) (N := 256) x w ns := by
  unfold refDense1 scaledDot
  funext i
  refine (dotPlain_apply (M := 50000) (K := 512) (N := 256) dot_S50000x512_S512x256_S50000x256_1_0_0_1_n_n rfl _ _ i).trans ?_
  have hb : ∀ k : Fin 512, broadcastInDim S50000x512 ![0, 1] bcast_S50000x1_S50000x512_0_1 ns (ix2 (i 0) k) = ns (ix2 (i 0) 0) :=
    fun k => bcastCol_apply (by decide) _ ns (i 0) k
  simp only [mulf_apply, hb]
  exact Cert.Lib.sum_scaled_mul_eq (fun k => x (ix2 (i 0) k)) (fun k => w (ix2 k (i 1))) (h (i 0)).1 (h (i 0)).2

/-- Layer 2: the same. -/
theorem refDense2_eq (x : (⟨S50000x256, .f32⟩ : BufTy).Contents (Elt Ideal)) (w : (⟨S256x64, .f32⟩ : BufTy).Contents (Elt Ideal))
    (ns : (⟨S50000x1, .f32⟩ : BufTy).Contents (Elt Ideal)) (h : ∀ p : Fin 50000, 0 ≤ ns (ix2 p 0) ∧ ns (ix2 p 0) ≠ ⊤) :
    refDense2 (F := Ideal) x w ns = scaledDot (M := 50000) (K := 256) (N := 64) x w ns := by
  unfold refDense2 scaledDot
  funext i
  refine (dotPlain_apply (M := 50000) (K := 256) (N := 64) dot_S50000x256_S256x64_S50000x64_1_0_0_1_n_n rfl _ _ i).trans ?_
  have hb : ∀ k : Fin 256, broadcastInDim S50000x256 ![0, 1] bcast_S50000x1_S50000x256_0_1 ns (ix2 (i 0) k) = ns (ix2 (i 0) 0) :=
    fun k => bcastCol_apply (by decide) _ ns (i 0) k
  simp only [mulf_apply, hb]
  exact Cert.Lib.sum_scaled_mul_eq (fun k => x (ix2 (i 0) k)) (fun k => w (ix2 k (i 1))) (h (i 0)).1 (h (i 0)).2

/-- The kernel program's function of the arguments is the reference's. -/
theorem kerOut_eq_refOut (feat : (⟨S50000x512, .f32⟩ : BufTy).Contents (Elt Ideal)) (src dst : (⟨S800000, .i32⟩ : BufTy).Contents (Elt Ideal))
    (w1 : (⟨S512x256, .f32⟩ : BufTy).Contents (Elt Ideal)) (b1 : (⟨S256, .f32⟩ : BufTy).Contents (Elt Ideal))
    (w2 : (⟨S256x64, .f32⟩ : BufTy).Contents (Elt Ideal)) (b2 : (⟨S64, .f32⟩ : BufTy).Contents (Elt Ideal)) :
    kerOut feat src dst w1 b1 w2 b2 = refOut (F := Ideal) feat src dst w1 b1 w2 b2 := by
  unfold kerOut refOut
  rw [refDense1_eq _ _ _ (col_normOf_nonneg src), refDense2_eq _ _ _ (col_normOf_nonneg src)]

end Cert.Spec

end
-- ==== Proof.lean ====
/-
  The kernel program and the reference compute the same two-layer graph convolution.

  Both count each node's out- and in-degree, take the symmetric norms (the inverse square root of the degree where it
  is positive, one elsewhere), and run two layers of: a matrix product, a gather of the rows at the source indices,
  a sum per destination node, a scale by the destination norm and a bias, with the positive part between the layers.
  They differ in one place per layer: the reference scales the rows of the left operand by the source norm BEFORE the
  matrix product, the kernel program scales the rows of the product AFTER it, in the epilogue of its tiled product
  (2000 rows per grid point, 25 points). On the extended reals the two agree because the norm is a nonnegative real:
  such a factor moves across every term of the sum and out of the sum. The float-format conversions around the tiled
  products are the identity at the ideal values. Every other host operation is the same on both sides and is carried
  as a named function that is never opened.

  The three frames are the generated ones (the reference's is its run with the result dropped); the idealization
  rewrote nothing, so `preserves` is trivial.
-/
import proofs.«421856_j3530463118095_4_alg».proof.Defs
import proofs.«421856_j3530463118095_4_alg».proof.Proof.Gen.Kernel
import proofs.«421856_j3530463118095_4_alg».proof.Proof.Gen.Kernel.Frame
import proofs.«421856_j3530463118095_4_alg».proof.Proof.Gen.KernelIdeal
import proofs.«421856_j3530463118095_4_alg».proof.Proof.Gen.KernelIdeal.Frame
import proofs.«421856_j3530463118095_4_alg».proof.Proof.Gen.ReferenceIdeal
import proofs.«421856_j3530463118095_4_alg».proof.Proof.Gen.Pre_finite_inputs
import proofs.«421856_j3530463118095_4_alg».proof.Proof.KernelRun
import proofs.«421856_j3530463118095_4_alg».proof.Proof.KValue
import proofs.«421856_j3530463118095_4_alg».proof.Proof.RefRun
import proofs.«421856_j3530463118095_4_alg».proof.Proof.RefSide
import proofs.«421856_j3530463118095_4_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the same function of the seven arguments: the kernel program at `Spec.kerOut` (the scale after
    each product), the reference at `Spec.refOut` (the scale before it), and the two are one function. -/
theorem algebraic : Cert.algebraic_KernelIdeal_ReferenceIdeal := by
  intro m ρ m' ρ' _ hagree
  refine ⟨fun c => Cert.Spec.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KValue.result_eq_kerOut m ρ c), (h c).2⟩)
      (Cert.KernelIdeal.Gen.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_refOut, (hagree c).1, (hagree c).2.1, (hagree c).2.2.1, (hagree c).2.2.2.1,
      (hagree c).2.2.2.2.1, (hagree c).2.2.2.2.2.1, (hagree c).2.2.2.2.2.2]
    exact (Cert.Spec.kerOut_eq_refOut _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
